-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x64x128 : Shape := ⟨3, ![6, 64, 128]⟩
abbrev S6x100000x128 : Shape := ⟨3, ![6, 100000, 128]⟩
abbrev S_ : Shape := ⟨0, ![]⟩

class Facts : Prop where
  bcast_S_S6x64x128 : S_.BroadcastsInDim S6x64x128 (![] : Fin 0 → Fin S6x64x128.rank)
  reducesTo_S6x64x128_S_d0_1_2 : S6x64x128.ReducesTo [0, 1, 2] S_
  h_S_ : 0 < S_.numel
  bcast_S_S6x100000x128 : S_.BroadcastsInDim S6x100000x128 (![] : Fin 0 → Fin S6x100000x128.rank)
  reducesTo_S6x100000x128_S_d0_1_2 : S6x100000x128.ReducesTo [0, 1, 2] S_

variable [Facts]

def fn {F : FTy → Type} [FloatOps F] (main_arg0 : FVec F S6x64x128 .f32) (main_arg1 : FVec F S6x100000x128 .f32) : IVec S_ 1 :=
  let main_v0 : FVec F S6x64x128 .f32 := Host.absf main_arg0
  let main_cst : FVec F S_ .f32 := constant S_ .f32 0x7F800000#32
  let main_v1 : FVec F S6x64x128 .f32 := broadcastInDim S6x64x128 ![] bcast_S_S6x64x128 main_cst
  let main_v2 : IVec S6x64x128 1 := cmpf .olt main_v0 main_v1
  let main_c : IVec S_ 1 := constantI S_ 1 1#1
  let main_v3 : IVec S_ 1 := (fun x v => Host.reduce IntOp.andi x v reducesTo_S6x64x128_S_d0_1_2 h_S_) main_v2 main_c
  let main_v4 : FVec F S6x100000x128 .f32 := Host.absf main_arg1
  let main_cst_0 : FVec F S_ .f32 := constant S_ .f32 0x7F800000#32
  let main_v5 : FVec F S6x100000x128 .f32 := broadcastInDim S6x100000x128 ![] bcast_S_S6x100000x128 main_cst_0
  let main_v6 : IVec S6x100000x128 1 := cmpf .olt main_v4 main_v5
  let main_c_1 : IVec S_ 1 := constantI S_ 1 1#1
  let main_v7 : IVec S_ 1 := (fun x v => Host.reduce IntOp.andi x v reducesTo_S6x100000x128_S_d0_1_2 h_S_) main_v6 main_c_1
  let main_v8 : IVec S_ 1 := andi main_v3 main_v7
  main_v8
-- ==== Kernel.lean ====
abbrev S6x64x128 : Shape := ⟨3, ![6, 64, 128]⟩
abbrev S6x100000x128 : Shape := ⟨3, ![6, 100000, 128]⟩
abbrev S6x64x100000 : Shape := ⟨3, ![6, 64, 100000]⟩
abbrev S1x64x128 : Shape := ⟨3, ![1, 64, 128]⟩
abbrev S1x25088x128 : Shape := ⟨3, ![1, 25088, 128]⟩
abbrev S1x64x25088 : Shape := ⟨3, ![1, 64, 25088]⟩
abbrev S64x128 : Shape := ⟨2, ![64, 128]⟩
abbrev S64 : Shape := ⟨1, ![64]⟩
abbrev S64x1 : Shape := ⟨2, ![64, 1]⟩
abbrev S25088x128 : Shape := ⟨2, ![25088, 128]⟩
abbrev S64x25088 : Shape := ⟨2, ![64, 25088]⟩

abbrev nBuf : Space → Nat
  | .hbm => 3
  | .vmem => 7
  | .smem => 0
  | _ => 0

abbrev bufTy : (tb : Table) → Fin (tcTables nBuf tb) → BufTy
  | .hbm, ⟨0, _⟩ => ⟨S6x64x128, .f32⟩
  | .hbm, ⟨1, _⟩ => ⟨S6x100000x128, .f32⟩
  | .hbm, ⟨2, _⟩ => ⟨S6x64x100000, .f32⟩
  | .local _ .vmem, ⟨0, _⟩ => ⟨S1x64x128, .f32⟩
  | .local _ .vmem, ⟨1, _⟩ => ⟨S1x64x128, .f32⟩
  | .local _ .vmem, ⟨2, _⟩ => ⟨S1x25088x128, .f32⟩
  | .local _ .vmem, ⟨3, _⟩ => ⟨S1x25088x128, .f32⟩
  | .local _ .vmem, ⟨4, _⟩ => ⟨S1x64x25088, .f32⟩
  | .local _ .vmem, ⟨5, _⟩ => ⟨S1x64x25088, .f32⟩
  | .local _ .vmem, ⟨6, _⟩ => ⟨S64x128, .bf16⟩
  | _, _ => ⟨S6x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x25088x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x25088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  reduces_S64x128_S64 : S64x128.Reduces [1] S64
  shapeCasts_S64_S64x1 : S64.ShapeCasts S64x1
  broadcasts_S64x1_S64x128 : S64x1.Broadcasts S64x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  packedbf16_S64x128_S64x128_0_0 : (Rect.unit (s := S64x128) ![0, 0] S64x128.size inb_S64x128_S64x128_0_0).PackedRows (EltTy.packing .bf16)
  inb_S1x25088x128_S1x25088x128_0_0_0 : ∀ a, (![0, 0, 0] : Fin 3 → Nat) a + S1x25088x128.size a ≤ S1x25088x128.size a
  h_S1x25088x128 : 0 < S1x25088x128.numel
  shapeCasts_S1x25088x128_S25088x128 : S1x25088x128.ShapeCasts S25088x128
  inb_S1x64x25088_S1x64x25088_0_0_0 : ∀ a, (![0, 0, 0] : Fin 3 → Nat) a + S1x64x25088.size a ≤ S1x64x25088.size a
  h_S1x64x25088 : 0 < S1x64x25088.numel
  shapeCasts_S1x64x25088_S64x25088 : S1x64x25088.ShapeCasts S64x25088
  shapeCasts_S64x25088_S1x64x25088 : S64x25088.ShapeCasts S1x64x25088
  dot_S64x128_S25088x128_S64x25088_1_1_0_0_n_n_wf : DotDims.WF S64x128 S25088x128 S64x25088 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S6x64x128.size a
  hwx0_0 : ∀ i : grid0.Coords, EltTy.bits .f32 = 32 ∨ (Rect.block (s := S6x64x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x25088x128.size a < S6x100000x128.size a
  hwx0_1 : ∀ i : grid0.Coords, EltTy.bits .f32 = 32 ∨ (Rect.unit (s := S6x100000x128) (fun a => cc0_transform_1 i a * S1x25088x128.size a) (fun a => (Pipeline.Clip.of (cc0_transform_1 i a) (S1x25088x128.size a) (S6x100000x128.size a)).extent (S1x25088x128.size a)) fun a => Pipeline.Clip.inb (Pipeline.Clip.ok_of (hstart0_1 i a))).WholeWords (EltTy.packing .f32)
  hwxs0_1 : ∀ i : grid0.Coords, EltTy.bits .f32 = 32 ∨ (Rect.unit (s := S1x25088x128) (fun _ => 0) (fun a => (Pipeline.Clip.of (cc0_transform_1 i a) (S1x25088x128.size a) (S6x100000x128.size a)).extent (S1x25088x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x64x25088.size a < S6x64x100000.size a
  hwx0_2 : ∀ i : grid0.Coords, EltTy.bits .f32 = 32 ∨ (Rect.unit (s := S6x64x100000) (fun a => cc0_transform_2 i a * S1x64x25088.size a) (fun a => (Pipeline.Clip.of (cc0_transform_2 i a) (S1x64x25088.size a) (S6x64x100000.size a)).extent (S1x64x25088.size a)) fun a => Pipeline.Clip.inb (Pipeline.Clip.ok_of (hstart0_2 i a))).WholeWords (EltTy.packing .f32)
  hwxs0_2 : ∀ i : grid0.Coords, EltTy.bits .f32 = 32 ∨ (Rect.unit (s := S1x64x25088) (fun _ => 0) (fun a => (Pipeline.Clip.of (cc0_transform_2 i a) (S1x64x25088.size a) (S6x64x100000.size a)).extent (S1x64x25088.size a)) fun a => (Nat.zero_add _).trans_le (Pipeline.Clip.extent_le (Pipeline.Clip.ok_of (hstart0_2 i a)))).WholeWords (EltTy.packing .f32)

variable [Facts₀]

def dot_S64x128_S25088x128_S64x25088_1_1_0_0_n_n : DotDims S64x128 S25088x128 S64x25088 where
  lhsContracting := [1]
  rhsContracting := [1]
  lhsNonContracting := [0]
  rhsNonContracting := [0]
  lhsBatch := []
  rhsBatch := []
  wf := dot_S64x128_S25088x128_S64x25088_1_1_0_0_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1x25088x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x64x25088.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6x64x128 : Shape := ⟨3, ![6, 64, 128]⟩
abbrev S6x100000x128 : Shape := ⟨3, ![6, 100000, 128]⟩
abbrev S_ : Shape := ⟨0, ![]⟩
abbrev S6x64 : Shape := ⟨2, ![6, 64]⟩
abbrev S6x64x1 : Shape := ⟨3, ![6, 64, 1]⟩
abbrev S6x64x100000 : Shape := ⟨3, ![6, 64, 100000]⟩

abbrev nBuf : Space → Nat
  | .hbm => 14
  | .vmem => 0
  | .smem => 0
  | _ => 0

abbrev bufTy : (tb : Table) → Fin (tcTables nBuf tb) → BufTy
  | .hbm, ⟨0, _⟩ => ⟨S6x64x128, .f32⟩
  | .hbm, ⟨1, _⟩ => ⟨S6x100000x128, .f32⟩
  | .hbm, ⟨2, _⟩ => ⟨S6x64x128, .f32⟩
  | .hbm, ⟨3, _⟩ => ⟨S_, .f32⟩
  | .hbm, ⟨4, _⟩ => ⟨S6x64, .f32⟩
  | .hbm, ⟨5, _⟩ => ⟨S6x64x1, .f32⟩
  | .hbm, ⟨6, _⟩ => ⟨S6x64x1, .f32⟩
  | .hbm, ⟨7, _⟩ => ⟨S_, .f32⟩
  | .hbm, ⟨8, _⟩ => ⟨S_, .f32⟩
  | .hbm, ⟨9, _⟩ => ⟨S6x64x1, .f32⟩
  | .hbm, ⟨10, _⟩ => ⟨S6x64x1, .f32⟩
  | .hbm, ⟨11, _⟩ => ⟨S6x64x128, .f32⟩
  | .hbm, ⟨12, _⟩ => ⟨S6x64x128, .f32⟩
  | .hbm, ⟨13, _⟩ => ⟨S6x64x100000, .f32⟩
  | _, _ => ⟨S6x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]

class Facts₀ : Prop where
  reducesTo_S6x64x128_S6x64_d2 : S6x64x128.ReducesTo [2] S6x64
  h_S_ : 0 < S_.numel
  bcast_S6x64_S6x64x1_0_1 : S6x64.BroadcastsInDim S6x64x1 (![0, 1] : Fin 2 → Fin S6x64x1.rank)
  bcast_S_S6x64x1 : S_.BroadcastsInDim S6x64x1 (![] : Fin 0 → Fin S6x64x1.rank)
  bcast_S6x64x1_S6x64x128_0_1_2 : S6x64x1.BroadcastsInDim S6x64x128 (![0, 1, 2] : Fin 3 → Fin S6x64x128.rank)
  dot_S6x64x128_S6x100000x128_S6x64x100000_2_2_1_1_0_0_wf : DotDims.WF S6x64x128 S6x100000x128 S6x64x100000 [2] [2] [1] [1] [0] [0]

variable [Facts₀]

def dot_S6x64x128_S6x100000x128_S6x64x100000_2_2_1_1_0_0 : DotDims S6x64x128 S6x100000x128 S6x64x100000 where
  lhsContracting := [2]
  rhsContracting := [2]
  lhsNonContracting := [1]
  rhsNonContracting := [1]
  lhsBatch := [0]
  rhsBatch := [0]
  wf := dot_S6x64x128_S6x100000x128_S6x64x100000_2_2_1_1_0_0_wf

class Facts : Prop extends Facts₀ where

variable [Facts]
-- ==== Proof.BodyK.lean ====
/-
  The kernel's body as a Hoare triple, at either float instance.

  At a grid point `(k, n)` the body is handed four whole buffers: the staged feature block, the staged block of memory
  rows, the staged result block, and the scratch that carries the scaled features from point to point. At the first
  point of a part (`n = 0`) it rescales the feature block into the scratch and multiplies from there; at every other
  point of the part it reads the scratch as the point before left it. Either way the feature and memory buffers are
  handed back untouched, and the result buffer ends as the product payload of the memory buffer and the scratch.
-/
import proofs.«179174_g58102317581049_cont_9to1_m_374_9_alg».proof.Proof.Gen.Kernel.Launch
import proofs.«179174_g58102317581049_cont_9to1_m_374_9_alg».proof.Proof.Gen.Kernel.Skeleton
import proofs.«179174_g58102317581049_cont_9to1_m_374_9_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first block of memory rows of its part". -/
abbrev first (i : grid0.Coords) : Prop :=
  (Scalar.cmpi .ne (Scalar.extui (Scalar.cmpi .eq (BitVec.ofNat 32 (i 1).val) 0#32)) 0#32) = 1#1

/-- Over the grid of `6 × 4` points in row-major order it holds exactly at the multiples of four. -/
theorem first_iff : ∀ t : Fin cfg0.N, first (grid0.coords t) ↔ t.val % 4 = 0 :=
  (by decide +kernel : ∀ t : Fin grid0.N, first (grid0.coords t) ↔ t.val % 4 = 0)

/-- At the first block of a part: the scratch is overwritten by the scaled features, and the result buffer by their
    products with the memory rows. -/
theorem body_first (c : Dev nD) (i : grid0.Coords) (hc : first i)
    (arg2 : Memref sig .tc .vmem S1x64x128 .f32) (harg2 : arg2.IsWhole)
    (arg3 : Memref sig .tc .vmem S1x25088x128 .f32) (harg3 : arg3.IsWhole)
    (arg4 : Memref sig .tc .vmem S1x64x25088 .f32) (harg4 : arg4.IsWhole)
    (arg5 : Memref sig .tc .vmem S64x128 .bf16) (harg5 : arg5.IsWhole)
    (x0 : Vec F S1x64x128 .f32) (x1 : Vec F S1x25088x128 .f32) (x2 : Vec F S1x64x25088 .f32) (xs : Vec F S64x128 .bf16)
    (E : Set ℕ) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare xs
          ∗ (iprop(owns (c : Thread nD τ) arg2 fullShare x0 ∗ owns (c : Thread nD τ) arg3 fullShare x1
                ∗ owns (c : Thread nD τ) arg4 fullShare (k0_pay2 x1 (k0_pay1 x0))
                ∗ owns (c : Thread nD τ) arg5 fullShare (k0_pay1 x0)) -∗ K ⟨⟩))
      ⊢ wp frame (wpE (defs₀ (F := F)) Variants.none c none) E
          (cc0__sim_body i arg2 harg2 arg3 harg3 arg4 harg4 arg5 harg5) K := by
  have hz3 : (![0, 0, 0] : Fin 3 → Nat) = fun _ => 0 := funext fun a => by fin_cases a <;> rfl
  have hz2 : (![0, 0] : Fin 2 → Nat) = fun _ => 0 := funext fun a => by fin_cases a <;> rfl
  simp only [cc0__sim_body_eq_skeleton]; unfold cc0__sim_body_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (View.read_writes_eq_canon _ _ _ ?_).trans ?_
    · intro y; refine ⟨_, List.mem_singleton_self _, ?_⟩; exact View.mem_set_unit_zero hz3 Facts₀.inb_S1x64x25088_S1x64x25088_0_0_0 y
    rw [View.canon_unit_zero hz3]
    sl_unfold_words
    simp only [View.readCov_unit_zero (S := S64x128) _ hz2, View.readAt_eq_ld, harg2.read_unread, harg3.read_unread,
      View.ld_unit_zero (S := S1x64x128) hz3, View.ld_unit_zero (S := S1x25088x128) hz3]
  · iexists _; isplitr
    swap; · iexact HS
    ipureintro
    sl_unfold_words
    refine (View.read_writes_eq_canon _ _ _ ?_).trans ?_
    · intro y; refine ⟨_, List.mem_singleton_self _, ?_⟩; exact View.mem_set_unit_zero hz2 Facts₀.inb_S64x128_S64x128_0_0 y
    rw [View.canon_unit_zero hz2]
    simp only [View.readAt_eq_ld, harg2.read_unread, View.ld_unit_zero (S := S1x64x128) hz3]

/-- At a later block of a part: the scratch is read and left as it was, and the result buffer is overwritten by the
    products of what the scratch holds with the memory rows. -/
theorem body_later (c : Dev nD) (i : grid0.Coords) (hc : ¬first i)
    (arg2 : Memref sig .tc .vmem S1x64x128 .f32) (harg2 : arg2.IsWhole)
    (arg3 : Memref sig .tc .vmem S1x25088x128 .f32) (harg3 : arg3.IsWhole)
    (arg4 : Memref sig .tc .vmem S1x64x25088 .f32) (harg4 : arg4.IsWhole)
    (arg5 : Memref sig .tc .vmem S64x128 .bf16) (harg5 : arg5.IsWhole)
    (x0 : Vec F S1x64x128 .f32) (x1 : Vec F S1x25088x128 .f32) (x2 : Vec F S1x64x25088 .f32) (xs : Vec F S64x128 .bf16)
    (E : Set ℕ) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare xs
          ∗ (iprop(owns (c : Thread nD τ) arg2 fullShare x0 ∗ owns (c : Thread nD τ) arg3 fullShare x1
                ∗ owns (c : Thread nD τ) arg4 fullShare (k0_pay2 x1 xs)
                ∗ owns (c : Thread nD τ) arg5 fullShare xs) -∗ K ⟨⟩))
      ⊢ wp frame (wpE (defs₀ (F := F)) Variants.none c none) E
          (cc0__sim_body i arg2 harg2 arg3 harg3 arg4 harg4 arg5 harg5) K := by
  have hz3 : (![0, 0, 0] : Fin 3 → Nat) = fun _ => 0 := funext fun a => by fin_cases a <;> rfl
  have hz2 : (![0, 0] : Fin 2 → Nat) = fun _ => 0 := funext fun a => by fin_cases a <;> rfl
  simp only [cc0__sim_body_eq_skeleton]; unfold cc0__sim_body_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (View.read_writes_eq_canon _ _ _ ?_).trans ?_
    · intro y; refine ⟨_, List.mem_singleton_self _, ?_⟩; exact View.mem_set_unit_zero hz3 Facts₀.inb_S1x64x25088_S1x64x25088_0_0_0 y
    rw [View.canon_unit_zero hz3]
    simp only [View.readAt_eq_ld, harg3.read_unread, harg5.read_unread, View.ld_unit_zero (S := S1x25088x128) hz3,
      View.ld_unit_zero (S := S64x128) hz2]
  · iexists _; isplitr; · ipureintro; exact hfs
    iexact HS

end Cert.Kernel.Hand

end
-- ==== Proof.FrameK.lean ====
/-
  The word-level kernel runs to the end, faults nowhere and leaves its two argument arrays as they were.

  Nothing is said here of what the body leaves in any staging buffer: the claim reads no result, the body takes no
  branch, address or count from a loaded word, and the two argument arrays are inputs, which no write-back touches.
-/
import proofs.«179174_g58102317581049_cont_9to1_m_374_9_alg».proof.Proof.BodyK
import proofs.«179174_g58102317581049_cont_9to1_m_374_9_alg».proof.Proof.Gen.Kernel.Frame
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core `c`: the arrays as launched; of what the body leaves in a staging
    buffer, nothing is said; the invariant is the scratch at some contents and the generator register at some state,
    the same at every point; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The invariant with the scratch as a memref owned at some contents. -/
theorem PhiA0_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-! ## The body obligation -/

/-- The body at any point, from any contents of the three current staging buffers: the scratch comes from the
    invariant at some contents and goes back at some contents; each staging buffer comes back at some contents. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0)
        ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X))) := by
  rw [show (rdat m c).owesAt () t.succ = (rdat m c).owesAt () t.castSucc from rfl]
  rw [show (rdat m c).Φ t.succ = Pipeline.ΦA spec0 c from rfl, show (rdat m c).Φ t.castSucc = Pipeline.ΦA spec0 c from rfl]
  rw [PhiA0_eq]
  unfold bodyAt0
  by_cases hc : first (grid0.coords t)
  · iintro ⟨⟨⟨%d, HS⟩, Hg⟩, Ho, H0, H1, H2⟩
    iapply (body_first c (grid0.coords t) hc _ _ _ _ _ _ _ _ (Y 0) (Y 1) (Y 2) d Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; iexact HS
      · iexact Hg
    isplitl [Ho]; · iexact Ho
    isplitl [H0]
    · iexists _; isplitr
      swap; · iexact H0
      ipureintro; trivial
    isplitl [H1]
    · iexists _; isplitr
      swap; · iexact H1
      ipureintro; trivial
    · iexists _; isplitr
      swap; · iexact H2
      ipureintro; trivial
  · iintro ⟨⟨⟨%d, HS⟩, Hg⟩, Ho, H0, H1, H2⟩
    iapply (body_later c (grid0.coords t) hc _ _ _ _ _ _ _ _ (Y 0) (Y 1) (Y 2) d Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; iexact HS
      · iexact Hg
    isplitl [Ho]; · iexact Ho
    isplitl [H0]
    · iexists _; isplitr
      swap; · iexact H0
      ipureintro; trivial
    isplitl [H1]
    · iexists _; isplitr
      swap; · iexact H1
      ipureintro; trivial
    · iexists _; isplitr
      swap; · iexact H2
      ipureintro; trivial

/-- The library's body obligation, at every point. -/
theorem body_obligation (c : Dev nD) : (rdat (F := F) m c).BodyObligation (defs₀ (F := F)) Variants.none () Set.univ := fun t Y _ => by
  rw [bigSep_W0, bigSep_W0]
  exact sound_body m c t Y

/-! ## The run and the frame -/

set_option backward.isDefEq.respectTransparency.types false in
/-- From any memory with zero counters every weakly fair execution of @main terminates, and every array of the
    pipeline ends at contents the write-backs may leave: an input array as it was. -/
theorem run_main : θ_run defs (onTc (τ := τ) (main (F := F))) (s₀ m ρ) (RDat.FramePost cfg0 (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- From any memory with zero counters every weakly fair execution of @main terminates without a fault, and the
    two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(RDat.FramePost.arr_in h c 0 rfl).trans (V_main_arg0 m c),
      (RDat.FramePost.arr_in h c 1 rfl).trans (V_main_arg1 m c)⟩) (run_main m ρ)

end Cert.Kernel.Hand

end
-- ==== Proof.BodyI.lean ====
/-
  The kernel's body as a Hoare triple, at either float instance.

  At a grid point `(k, n)` the body is handed four whole buffers: the staged feature block, the staged block of memory
  rows, the staged result block, and the scratch that carries the scaled features from point to point. At the first
  point of a part (`n = 0`) it rescales the feature block into the scratch and multiplies from there; at every other
  point of the part it reads the scratch as the point before left it. Either way the feature and memory buffers are
  handed back untouched, and the result buffer ends as the product payload of the memory buffer and the scratch.
-/
import proofs.«179174_g58102317581049_cont_9to1_m_374_9_alg».proof.Proof.Gen.KernelIdeal.Launch
import proofs.«179174_g58102317581049_cont_9to1_m_374_9_alg».proof.Proof.Gen.KernelIdeal.Skeleton
import proofs.«179174_g58102317581049_cont_9to1_m_374_9_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first block of memory rows of its part". -/
abbrev first (i : grid0.Coords) : Prop :=
  (Scalar.cmpi .ne (Scalar.extui (Scalar.cmpi .eq (BitVec.ofNat 32 (i 1).val) 0#32)) 0#32) = 1#1

/-- Over the grid of `6 × 4` points in row-major order it holds exactly at the multiples of four. -/
theorem first_iff : ∀ t : Fin cfg0.N, first (grid0.coords t) ↔ t.val % 4 = 0 :=
  (by decide +kernel : ∀ t : Fin grid0.N, first (grid0.coords t) ↔ t.val % 4 = 0)

/-- At the first block of a part: the scratch is overwritten by the scaled features, and the result buffer by their
    products with the memory rows. -/
theorem body_first (c : Dev nD) (i : grid0.Coords) (hc : first i)
    (arg2 : Memref sig .tc .vmem S1x64x128 .f32) (harg2 : arg2.IsWhole)
    (arg3 : Memref sig .tc .vmem S1x25088x128 .f32) (harg3 : arg3.IsWhole)
    (arg4 : Memref sig .tc .vmem S1x64x25088 .f32) (harg4 : arg4.IsWhole)
    (arg5 : Memref sig .tc .vmem S64x128 .bf16) (harg5 : arg5.IsWhole)
    (x0 : Vec F S1x64x128 .f32) (x1 : Vec F S1x25088x128 .f32) (x2 : Vec F S1x64x25088 .f32) (xs : Vec F S64x128 .bf16)
    (E : Set ℕ) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare xs
          ∗ (iprop(owns (c : Thread nD τ) arg2 fullShare x0 ∗ owns (c : Thread nD τ) arg3 fullShare x1
                ∗ owns (c : Thread nD τ) arg4 fullShare (k0_pay2 x1 (k0_pay1 x0))
                ∗ owns (c : Thread nD τ) arg5 fullShare (k0_pay1 x0)) -∗ K ⟨⟩))
      ⊢ wp frame (wpE (defs₀ (F := F)) Variants.none c none) E
          (cc0__sim_body i arg2 harg2 arg3 harg3 arg4 harg4 arg5 harg5) K := by
  have hz3 : (![0, 0, 0] : Fin 3 → Nat) = fun _ => 0 := funext fun a => by fin_cases a <;> rfl
  have hz2 : (![0, 0] : Fin 2 → Nat) = fun _ => 0 := funext fun a => by fin_cases a <;> rfl
  simp only [cc0__sim_body_eq_skeleton]; unfold cc0__sim_body_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (View.read_writes_eq_canon _ _ _ ?_).trans ?_
    · intro y; refine ⟨_, List.mem_singleton_self _, ?_⟩; exact View.mem_set_unit_zero hz3 Facts₀.inb_S1x64x25088_S1x64x25088_0_0_0 y
    rw [View.canon_unit_zero hz3]
    sl_unfold_words
    simp only [View.readCov_unit_zero (S := S64x128) _ hz2, View.readAt_eq_ld, harg2.read_unread, harg3.read_unread,
      View.ld_unit_zero (S := S1x64x128) hz3, View.ld_unit_zero (S := S1x25088x128) hz3]
  · iexists _; isplitr
    swap; · iexact HS
    ipureintro
    sl_unfold_words
    refine (View.read_writes_eq_canon _ _ _ ?_).trans ?_
    · intro y; refine ⟨_, List.mem_singleton_self _, ?_⟩; exact View.mem_set_unit_zero hz2 Facts₀.inb_S64x128_S64x128_0_0 y
    rw [View.canon_unit_zero hz2]
    simp only [View.readAt_eq_ld, harg2.read_unread, View.ld_unit_zero (S := S1x64x128) hz3]

/-- At a later block of a part: the scratch is read and left as it was, and the result buffer is overwritten by the
    products of what the scratch holds with the memory rows. -/
theorem body_later (c : Dev nD) (i : grid0.Coords) (hc : ¬first i)
    (arg2 : Memref sig .tc .vmem S1x64x128 .f32) (harg2 : arg2.IsWhole)
    (arg3 : Memref sig .tc .vmem S1x25088x128 .f32) (harg3 : arg3.IsWhole)
    (arg4 : Memref sig .tc .vmem S1x64x25088 .f32) (harg4 : arg4.IsWhole)
    (arg5 : Memref sig .tc .vmem S64x128 .bf16) (harg5 : arg5.IsWhole)
    (x0 : Vec F S1x64x128 .f32) (x1 : Vec F S1x25088x128 .f32) (x2 : Vec F S1x64x25088 .f32) (xs : Vec F S64x128 .bf16)
    (E : Set ℕ) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare xs
          ∗ (iprop(owns (c : Thread nD τ) arg2 fullShare x0 ∗ owns (c : Thread nD τ) arg3 fullShare x1
                ∗ owns (c : Thread nD τ) arg4 fullShare (k0_pay2 x1 xs)
                ∗ owns (c : Thread nD τ) arg5 fullShare xs) -∗ K ⟨⟩))
      ⊢ wp frame (wpE (defs₀ (F := F)) Variants.none c none) E
          (cc0__sim_body i arg2 harg2 arg3 harg3 arg4 harg4 arg5 harg5) K := by
  have hz3 : (![0, 0, 0] : Fin 3 → Nat) = fun _ => 0 := funext fun a => by fin_cases a <;> rfl
  have hz2 : (![0, 0] : Fin 2 → Nat) = fun _ => 0 := funext fun a => by fin_cases a <;> rfl
  simp only [cc0__sim_body_eq_skeleton]; unfold cc0__sim_body_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (View.read_writes_eq_canon _ _ _ ?_).trans ?_
    · intro y; refine ⟨_, List.mem_singleton_self _, ?_⟩; exact View.mem_set_unit_zero hz3 Facts₀.inb_S1x64x25088_S1x64x25088_0_0_0 y
    rw [View.canon_unit_zero hz3]
    simp only [View.readAt_eq_ld, harg3.read_unread, harg5.read_unread, View.ld_unit_zero (S := S1x25088x128) hz3,
      View.ld_unit_zero (S := S64x128) hz2]
  · iexists _; isplitr; · ipureintro; exact hfs
    iexact HS

end Cert.KernelIdeal.Hand

end
-- ==== Proof.DataI.lean ====
/-
  What the staging buffers and the scratch hold after the body at each grid point, on the extended reals.

  The grid is `6` parts by `4` blocks of `25088` memory rows, walked in row-major order: point `t` is part `t / 4`,
  block `t % 4`. The feature window's buffer holds part `t / 4`'s feature block at every point. The memory window's
  buffer holds block `t % 4` of the part's memory rows; the last block of a part overhangs the array's `100000` rows
  by `352`, and there the buffer's tail holds words nothing names, so its contents are stated on the rows inside the
  array only (filled out with zeros here, a choice nothing reads). The scratch holds the part's scaled features,
  computed at the part's first point `t / 4 * 4` and carried to the later ones. The result window's buffer holds
  the products of the scratch with the memory block; its columns past the array's end are never written back.
-/
import proofs.«179174_g58102317581049_cont_9to1_m_374_9_alg».proof.Proof.Gen.KernelIdeal.Frame
import proofs.«179174_g58102317581049_cont_9to1_m_374_9_alg».proof.Proof.Gen.KernelIdeal.Skeleton
import Idealize.ShloMosaic.Lib.Pipeline.Frame
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first point of the part that point `t` belongs to. -/
def base (t : Fin cfg0.N) : Fin cfg0.N :=
  ⟨t.val / 4 * 4, by have h := t.isLt; have h24 : cfg0.N = 24 := N_0; omega⟩

theorem base_val (t : Fin cfg0.N) : (base t).val = t.val / 4 * 4 := rfl

/-- The scratch operand, a whole buffer of the kernel's own. -/
abbrev scM : Memref sig .tc .vmem S64x128 .bf16 := Memref.whole cc0_scratch0

/-- The scratch after point `t`: the scaled features of `t`'s part, as its first point computed them. -/
def scr (c : Dev nD) (t : Fin cfg0.N) : Vec Ideal S64x128 .bf16 :=
  k0_pay1 (F := Ideal) (iblk m c 0 (base t))

/-- The memory window's buffer after point `t` on the rows inside the array, zeros past the array's end. -/
def mfull (c : Dev nD) (t : Fin cfg0.N) : Vec Ideal S1x25088x128 .f32 :=
  win0_1.fill (grid0.coords t) (fun _ => Scalar.ofBits (F := Ideal) .f32 0#32) (iblk m c 1 t)

/-- The result window's buffer after point `t`: the scratch times the memory block. -/
def outb (c : Dev nD) (t : Fin cfg0.N) : Vec Ideal S1x64x25088 .f32 :=
  k0_pay2 (F := Ideal) (mfull m c t) (scr m c t)

/-- The invariant between points, at position `j` (before point `j`, after point `j - 1`): the scratch at some
    contents, which inside a part (`j` not a multiple of four) are the scaled features the point before left; and
    the generator register at some state. -/
def PhiS (c : Dev nD) (j : Fin (cfg0.N + 1)) : sProp 𝕄 :=
  iprop((∃ f : Vec Ideal S64x128 .bf16, owns (c : Thread nD τ) scM fullShare f
            ∗ ⌜∀ h : j.val - 1 < cfg0.N, j.val % 4 ≠ 0 → f = scr m c ⟨j.val - 1, h⟩⌝)
        ∗ (∃ r, prngReg c r))

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => mfull m c t
    | ⟨2, _⟩ => outb m c t
  Φ j := PhiS m c j
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = mfull m c t := by dsimp only [dats]
theorem after_2 (c : Dev nD) (t : Fin cfg0.N) : (dats m 0 c).after 2 t = outb m c t := by dsimp only [dats]
theorem Phi_eq (c : Dev nD) (j : Fin (cfg0.N + 1)) : (dats m 0 c).Φ j = PhiS m c j := by dsimp only [dats]

end Cert.KernelIdeal.Hand

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Spec.lean ====
/-
  The function both programs compute, index by index, on the extended reals.

  For a bank of `6` parts, features `x : [6, 64, 128]` and memory rows `y : [6, 100000, 128]`, the result at
  `(k, b, n)` is the inner product over the `128` feature coordinates of row `b` of part `k`, scaled to unit
  length, with memory row `n` of part `k`. "Scaled to unit length" divides the row by its Euclidean norm clamped
  from below at the single-precision pattern of `1e-12` (the same pattern on both sides, never evaluated).
-/
import Idealize.ShloMosaic.PureOps.Ideal
import Idealize.ShloMosaic.Lib.ValueIdx

noncomputable section

open scoped BigOperators

namespace Cert.Spec

open Idealize.ShloMosaic Idealize.ShloMosaic.ValueIdx

/-- The lower clamp of a norm: the value of the single-precision pattern both programs print. -/
abbrev eps : EReal := Ideal.ofBits .f32 0x2B8CBCCC#32

/-- The clamped Euclidean norm of feature row `(k, b)`: the square root of the sum of the squares of its `128`
    coordinates, or `eps` if that is larger. -/
def cnorm (x : (⟨3, ![6, 64, 128]⟩ : Shape).Idx → EReal) (k : Fin 6) (b : Fin 64) : EReal :=
  max (Ideal.sqrt (∑ e : Fin 128, x (ix3 k b e) * x (ix3 k b e))) eps

/-- Coordinate `d` of feature row `(k, b)` scaled by its clamped norm. -/
def unit (x : (⟨3, ![6, 64, 128]⟩ : Shape).Idx → EReal) (k : Fin 6) (b : Fin 64) (d : Fin 128) : EReal :=
  Ideal.div (x (ix3 k b d)) (cnorm x k b)

/-- The similarity tensor: at `(k, b, n)` the inner product of the scaled feature row `(k, b)` with memory row
    `(k, n)`. -/
def sim (x : (⟨3, ![6, 64, 128]⟩ : Shape).Idx → EReal) (y : (⟨3, ![6, 100000, 128]⟩ : Shape).Idx → EReal) :
    (⟨3, ![6, 64, 100000]⟩ : Shape).Idx → EReal :=
  fun i => ∑ d : Fin 128, unit x (i 0) (i 1) d * y (ix3 (i 0) (i 2) d)

end Cert.Spec

end
-- ==== Proof.PayI.lean ====
/-
  The two payloads of the kernel's body read at an index, on the extended reals.

  The first payload rescales a block of `64` feature rows: each entry is divided by its row's Euclidean norm, clamped
  from below. The second multiplies the `64 × 128` scaled features with a block of `25088` memory rows along the
  `128` feature coordinates: entry `(b, j)` is the inner product of feature row `b` with memory row `j`. The
  narrowing of either operand to a sixteen-bit format is the identity on the extended reals.
-/
import proofs.«179174_g58102317581049_cont_9to1_m_374_9_alg».proof.Proof.Gen.KernelIdeal.Skeleton
import proofs.«179174_g58102317581049_cont_9to1_m_374_9_alg».proof.Proof.LibContraction
import proofs.«179174_g58102317581049_cont_9to1_m_374_9_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

/-! ## Two column layouts read at an index -/

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The two payloads -/

/-- The scaled features at row `b`, coordinate `d`: the entry over the clamped norm of its row. -/
theorem pay1_apply (x0 : Vec Ideal S1x64x128 .f32) (b : Fin 64) (d : Fin 128) :
    k0_pay1 (F := Ideal) x0 (ix2 b d)
      = Ideal.div (x0 (ix3 (0 : Fin 1) b d))
          (max (Ideal.sqrt (∑ e : Fin 128, x0 (ix3 (0 : Fin 1) b e) * x0 (ix3 (0 : Fin 1) b e))) Cert.Spec.eps) := by
  unfold k0_pay1
  rw [shapeCast_self, truncf_apply, divf_apply, shapeCast_1ab_ab_apply, broadcastTo_a1_ab_apply, maximumf_apply, broadcast_apply]
  refine congrArg (Ideal.div _) ?_
  refine congrArg (fun t => max t Cert.Spec.eps) ?_
  show Ideal.sqrt (shapeCast S64x1 _ shapeCasts_S64_S64x1 (ix2 b 0)) = _
  rw [shapeCast_a_a1_apply]
  refine congrArg Ideal.sqrt ?_
  refine (Ideal.multiReduction_add_single _ _ _ _ _ _).trans ?_
  show ∑ e : Fin 128, _ = _
  refine Finset.sum_congr rfl fun e _ => ?_
  have hidx : reduces_S64x128_S64.lift (ix1 b) e = ix2 b e :=
    funext fun a => Fin.ext (by match a with | ⟨0, _⟩ => rfl | ⟨1, _⟩ => rfl)
  rw [hidx, mulf_apply, shapeCast_1ab_ab_apply]

section Product

open Cert.Lib.Contraction

/-- At contraction position `i` the left operand of the product is read at `(b, i)`. -/
theorem lhs_index (b : Fin 64) (j : Fin 25088) (i : Fin 128) :
    dot_S64x128_S25088x128_S64x25088_1_1_0_0_n_n.lhsIdx (ix2 b j)
        ((contrFin dot_S64x128_S25088x128_S64x25088_1_1_0_0_n_n (cl := 1) rfl 128 rfl).symm i) = ix2 b i :=
  funext fun a => Fin.ext (by
    match a with
    | ⟨0, _⟩ => exact lhs_free dot_S64x128_S25088x128_S64x25088_1_1_0_0_n_n (nl := 0) rfl rfl (ix2 b j) _ (by decide)
    | ⟨1, _⟩ => exact lhs_contracted dot_S64x128_S25088x128_S64x25088_1_1_0_0_n_n (cl := 1) rfl 128 rfl (ix2 b j) i)

/-- At contraction position `i` the right operand of the product is read at `(j, i)`. -/
theorem rhs_index (b : Fin 64) (j : Fin 25088) (i : Fin 128) :
    dot_S64x128_S25088x128_S64x25088_1_1_0_0_n_n.rhsIdx (ix2 b j)
        ((contrFin dot_S64x128_S25088x128_S64x25088_1_1_0_0_n_n (cl := 1) rfl 128 rfl).symm i) = ix2 j i :=
  funext fun a => Fin.ext (by
    match a with
    | ⟨0, _⟩ =>
      exact rhs_free dot_S64x128_S25088x128_S64x25088_1_1_0_0_n_n (nl := 0) (nr := 0) rfl rfl rfl rfl (ix2 b j) _ (by decide)
    | ⟨1, _⟩ =>
      exact rhs_contracted dot_S64x128_S25088x128_S64x25088_1_1_0_0_n_n (cl := 1) (cr := 1) rfl rfl 128 rfl (ix2 b j) i)

/-- The product block at feature row `b`, memory row `j`: their inner product over the feature coordinates. -/
theorem pay2_apply (x1 : Vec Ideal S1x25088x128 .f32) (xs : Vec Ideal S64x128 .bf16) (b : Fin 64) (j : Fin 25088) :
    k0_pay2 (F := Ideal) x1 xs (ix3 (0 : Fin 1) b j) = ∑ d : Fin 128, xs (ix2 b d) * x1 (ix3 (0 : Fin 1) j d) := by
  unfold k0_pay2
  rw [shapeCast_ab_1ab_apply]
  refine (Ideal.matmul_constant_zero_apply dot_S64x128_S25088x128_S64x25088_1_1_0_0_n_n none xs _ (ix2 b j)).trans ?_
  refine (sum_contr dot_S64x128_S25088x128_S64x25088_1_1_0_0_n_n (cl := 1) rfl 128 rfl _).trans ?_
  refine Finset.sum_congr rfl fun i _ => ?_
  rw [lhs_index, rhs_index, truncf_apply, shapeCast_1ab_ab_apply]

end Product

/-- So column `j` of the product block depends on memory row `j` alone: two blocks of memory rows that agree on
    that row give the same column. -/
theorem pay2_congr_row (x1 x1' : Vec Ideal S1x25088x128 .f32) (xs : Vec Ideal S64x128 .bf16) (b : Fin 64) (j : Fin 25088)
    (h : ∀ d : Fin 128, x1 (ix3 (0 : Fin 1) j d) = x1' (ix3 (0 : Fin 1) j d)) :
    k0_pay2 (F := Ideal) x1 xs (ix3 (0 : Fin 1) b j) = k0_pay2 (F := Ideal) x1' xs (ix3 (0 : Fin 1) b j) := by
  rw [pay2_apply, pay2_apply]
  exact Finset.sum_congr rfl fun d _ => by rw [h d]

end Cert.KernelIdeal.Hand

end
-- ==== Proof.RunI.lean ====
/-
  The idealized kernel's run with every staging buffer named.

  At each grid point the body finds the feature block in its buffer, the memory block in its buffer on the rows inside
  the array (anything past them), anything in the result buffer, and in the scratch — inside a part — the scaled
  features of the part. It leaves the first two as found, the scratch at the part's scaled features, and the result
  buffer at their products with what the memory buffer held. A column of that product reads one memory row only, so on
  the columns inside the array the result buffer does not depend on what lay past the memory array's end: that is all
  the write-back moves, and all that is stated.
-/
import proofs.«179174_g58102317581049_cont_9to1_m_374_9_alg».proof.Proof.BodyI
import proofs.«179174_g58102317581049_cont_9to1_m_374_9_alg».proof.Proof.DataI
import proofs.«179174_g58102317581049_cont_9to1_m_374_9_alg».proof.Proof.PayI
import Idealize.ShloMosaic.Lib.Pipeline.Frame
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The parts of the grid -/

/-- The first point of a part is its own base. -/
theorem base_first (t : Fin cfg0.N) (h : t.val % 4 = 0) : base t = t :=
  Fin.ext (by rw [base_val]; omega)

/-- Inside a part the point before has the same base. -/
theorem base_later (t : Fin cfg0.N) (h : t.val % 4 ≠ 0) (h' : t.val - 1 < cfg0.N) : base ⟨t.val - 1, h'⟩ = base t :=
  Fin.ext (by simp only [base_val]; omega)

theorem scr_first (c : Dev nD) (t : Fin cfg0.N) (h : t.val % 4 = 0) : scr m c t = k0_pay1 (F := Ideal) (iblk m c 0 t) := by
  unfold scr; rw [base_first t h]

theorem scr_later (c : Dev nD) (t : Fin cfg0.N) (h : t.val % 4 ≠ 0) (h' : t.val - 1 < cfg0.N) :
    scr m c ⟨t.val - 1, h'⟩ = scr m c t := by
  unfold scr; rw [base_later t h h']

/-! ## What the body finds -/

theorem before_0 (c : Dev nD) (t : Fin cfg0.N) (d) : (dats m 0 c).before 0 t d = iblk m c 0 t :=
  before0_0_of m (dats m 0 c) (A_eq m c 0) (after_0 m c) t d

theorem before_1 (c : Dev nD) (t : Fin cfg0.N) (d) :
    (dats m 0 c).before 1 t d = win0_1.fill (grid0.coords t) d (iblk m c 1 t) := by
  rw [Pipeline.Dat.before_fetched _ 1 t (fetch0_1 t)]
  unfold Dat.fetched Dat.blockOf iblk
  rw [A_eq]

theorem before_2 (c : Dev nD) (t : Fin cfg0.N) (d) : (dats m 0 c).before 2 t d = d :=
  Pipeline.Dat.before_out_reset (dats m 0 c) 2 rfl t
    (by by_cases h : t.val = 0
        · exact .inl h
        · exact .inr ⟨h, flush0_2 _⟩) d

/-! ## The result buffer on the columns inside the array -/

/-- The memory window and the result window are cut alike: the memory rows a point's fetch moves are the result
    columns its write-back moves; the other axes are moved whole. -/
theorem xsize_facts : ∀ t : Fin cfg0.N, win0_1.xsize (grid0.coords t) 0 = 1
    ∧ win0_1.xsize (grid0.coords t) 1 = win0_2.xsize (grid0.coords t) 2 ∧ win0_1.xsize (grid0.coords t) 2 = 128 :=
  (by decide +kernel : ∀ t : Fin grid0.N, win0_1.xsize (grid0.coords t) 0 = 1
    ∧ win0_1.xsize (grid0.coords t) 1 = win0_2.xsize (grid0.coords t) 2 ∧ win0_1.xsize (grid0.coords t) 2 = 128)

/-- On a memory row the fetch moves, the buffer holds the block's row whatever it held before. -/
theorem fill_row (t : Fin cfg0.N) (d d' : S1x25088x128.Idx → Elt Ideal .f32)
    (g : (win0_1.xblock (grid0.coords t)).Idx → Elt Ideal .f32) (r : Fin 25088)
    (hr : r.val < win0_2.xsize (grid0.coords t) 2) (e : Fin 128) :
    win0_1.fill (grid0.coords t) d g (ix3 (0 : Fin 1) r e) = win0_1.fill (grid0.coords t) d' g (ix3 (0 : Fin 1) r e) := by
  obtain ⟨h0, h1, h2⟩ := xsize_facts t
  have hm : win0_1.moved (grid0.coords t) (ix3 (0 : Fin 1) r e) = true :=
    (win0_1.moved_iff _ _).mpr fun a => by
      match a with
      | ⟨0, _⟩ => show (0 : Nat) < win0_1.xsize (grid0.coords t) 0; rw [h0]; exact Nat.one_pos
      | ⟨1, _⟩ => show r.val < win0_1.xsize (grid0.coords t) 1; rw [h1]; exact hr
      | ⟨2, _⟩ => show e.val < win0_1.xsize (grid0.coords t) 2; rw [h2]; exact e.isLt
  unfold Window.fill; rw [dif_pos hm, dif_pos hm]

/-- So the part of the result buffer the write-back moves is the same whatever lay past the memory array's end. -/
theorem out_cut (c : Dev nD) (t : Fin cfg0.N) (d1 : S1x25088x128.Idx → Elt Ideal .f32) :
    win0_2.cut (grid0.coords t) (k0_pay2 (F := Ideal) (win0_1.fill (grid0.coords t) d1 (iblk m c 1 t)) (scr m c t))
      = win0_2.cut (grid0.coords t) (outb m c t) := by
  funext j
  have hb : (j 1).val < 64 := Nat.lt_of_lt_of_le (j 1).isLt (win0_2.xsize_le (grid0.coords t) 1)
  have hn : (j 2).val < 25088 := Nat.lt_of_lt_of_le (j 2).isLt (win0_2.xsize_le (grid0.coords t) 2)
  have hj : win0_2.xinj (grid0.coords t) j = ix3 (0 : Fin 1) (⟨(j 1).val, hb⟩ : Fin 64) (⟨(j 2).val, hn⟩ : Fin 25088) :=
    funext fun a => Fin.ext (by
      match a with
      | ⟨0, _⟩ =>
        have h1 : (win0_2.xinj (grid0.coords t) j 0).val < 1 := (win0_2.xinj (grid0.coords t) j 0).isLt
        show (win0_2.xinj (grid0.coords t) j 0).val = 0; omega
      | ⟨1, _⟩ => rfl
      | ⟨2, _⟩ => rfl)
  show k0_pay2 (F := Ideal) _ _ (win0_2.xinj (grid0.coords t) j) = outb m c t (win0_2.xinj (grid0.coords t) j)
  rw [hj]
  unfold outb mfull
  exact pay2_congr_row _ _ _ _ _ fun e => fill_row t _ _ _ _ (j 2).isLt e

/-! ## The body obligation -/

/-- The class's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the feature buffer as named, the two cut windows' buffers named on the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, after_0, after_1, after_2]
  rw [show (dats m 0 c).owesAt () t.succ = (dats m 0 c).owesAt () t.castSucc from rfl, Phi_eq, Phi_eq]
  unfold PhiS
  have hsucc : ∀ h : t.succ.val - 1 < cfg0.N, (⟨t.succ.val - 1, h⟩ : Fin cfg0.N) = t := fun h => Fin.ext (by simp)
  iintro ⟨⟨⟨%f, Hs, %hf⟩, Hg⟩, Ho, ⟨%d0, H0⟩, ⟨%d1, H1⟩, ⟨%d2, H2⟩⟩
  by_cases hc : t.val % 4 = 0
  · iapply (body_first (F := Ideal) c (grid0.coords t) ((first_iff t).mpr hc) _ _ _ _ _ _ _ _
      (iblk m c 0 t) (win0_1.fill (grid0.coords t) d1 (iblk m c 1 t)) d2 f Set.univ _)
    isplitl [H0]; · iexact H0
    isplitl [H1]; · iexact H1
    isplitl [H2]; · iexact H2
    isplitl [Hs]; · iexact Hs
    iintro ⟨H0, H1, H2, Hs⟩
    rw [← scr_first m c t hc]
    isplitl [Hs Hg]
    · isplitl [Hs]
      · iexists scr m c t
        isplitl [Hs]; · iexact Hs
        ipureintro; intro h _; rw [hsucc h]
      iexact Hg
    isplitl [Ho]; · iexact Ho
    isplitl [H0]; · iexact H0
    isplitl [H1]
    · iexists d1; unfold mfull; rw [win0_1.cut_fill]; iexact H1
    · iexists _
      rw [← out_cut m c t d1, win0_2.fill_cut]
      iexact H2
  · have h' : t.val - 1 < cfg0.N := Nat.lt_of_le_of_lt (Nat.sub_le _ _) t.isLt
    have hfe : f = scr m c t := by
      have := hf (by simpa using h') (by simpa using hc)
      rw [this]; simp only [Fin.coe_castSucc]; exact scr_later m c t hc h'
    subst hfe
    iapply (body_later (F := Ideal) c (grid0.coords t) (fun h => hc ((first_iff t).mp h)) _ _ _ _ _ _ _ _
      (iblk m c 0 t) (win0_1.fill (grid0.coords t) d1 (iblk m c 1 t)) d2 (scr m c t) Set.univ _)
    isplitl [H0]; · iexact H0
    isplitl [H1]; · iexact H1
    isplitl [H2]; · iexact H2
    isplitl [Hs]; · iexact Hs
    iintro ⟨H0, H1, H2, Hs⟩
    isplitl [Hs Hg]
    · isplitl [Hs]
      · iexists scr m c t
        isplitl [Hs]; · iexact Hs
        ipureintro; intro h _; rw [hsucc h]
      iexact Hg
    isplitl [Ho]; · iexact Ho
    isplitl [H0]; · iexact H0
    isplitl [H1]
    · iexists d1; unfold mfull; rw [win0_1.cut_fill]; iexact H1
    · iexists _
      rw [← out_cut m c t d1, win0_2.fill_cut]
      iexact H2

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

theorem hin (c : Dev nD) : Pipeline.ΦA spec0 c ⊢ (dats m 0 c).Φ 0 := by
  rw [Phi_eq, PhiA_eq]; unfold PhiS
  iintro ⟨⟨%f, Hs⟩, Hg⟩
  isplitl [Hs]
  · iexists f
    isplitl [Hs]; · iexact Hs
    ipureintro; intro _ h; exact absurd rfl h
  iexact Hg

theorem hout (c : Dev nD) : (dats m 0 c).Φ (Fin.last cfg0.N) ⊢ Pipeline.ΦA spec0 c := by
  rw [Phi_eq, PhiA_eq]; unfold PhiS
  iintro ⟨⟨%f, Hs, -⟩, Hg⟩
  isplitl [Hs]
  · iexists f; iexact Hs
  iexact Hg

set_option backward.isDefEq.respectTransparency.types false in
/-- From any memory with zero counters every weakly fair execution of @main terminates, and every array of the
    pipeline ends at what the library computes from the proof data. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

end Cert.KernelIdeal.Hand

end
-- ==== Proof.ValueI.lean ====
/-
  The result array after the run is the similarity tensor of the argument arrays.

  The grid is `6` parts by `4` blocks of `25088` memory rows; point `t` is part `t / 4`, block `t % 4`. At every
  point the feature block is the part's `64 × 128` features, the memory block holds rows
  `t % 4 * 25088 …` of the part's memory (the last block of a part is cut to the `24736` rows left below `100000`),
  and the product block's column `j` is the inner product of the part's scaled features with memory row
  `t % 4 * 25088 + j`. The write-back moves exactly the columns whose rows exist, and the `24` cut blocks tile the
  `6 × 64 × 100000` result, so the result is one function of the arguments index by index.
-/
import proofs.«179174_g58102317581049_cont_9to1_m_374_9_alg».proof.Proof.DataI
import proofs.«179174_g58102317581049_cont_9to1_m_374_9_alg».proof.Proof.PayI
import proofs.«179174_g58102317581049_cont_9to1_m_374_9_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The windows' block indices and cut sizes at each of the 24 grid points: point `t` is part `t / 4`, block
    `t % 4`; the feature window moves with the part alone; the memory and result windows are cut, on their long
    axis, at what is left of the `100000` rows from the block's first. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = t.val % 4
    ∧ win0_1.xsize (grid0.coords t) (0 : Fin 3) = 1
    ∧ win0_1.xsize (grid0.coords t) (1 : Fin 3) = min 25088 (100000 - t.val % 4 * 25088)
    ∧ win0_1.xsize (grid0.coords t) (2 : Fin 3) = 128
    ∧ win0_2.xsize (grid0.coords t) (0 : Fin 3) = 1
    ∧ win0_2.xsize (grid0.coords t) (1 : Fin 3) = 64
    ∧ win0_2.xsize (grid0.coords t) (2 : Fin 3) = min 25088 (100000 - t.val % 4 * 25088) :=
  (by decide +kernel : ∀ t : Fin grid0.N, _)

/-- The grid has `6 × 4` points. -/
theorem N_24 : cfg0.N = 24 := N_0

/-- The feature block at point `t`, read at row `b`, coordinate `d`: the feature array of part `t / 4` there. -/
theorem iblk0_apply (c : Dev nD) (t : Fin cfg0.N) (b : Fin 64) (d : Fin 128) (k : Fin 6) (hk : k.val = t.val / 4) :
    (iblk m c 0 t : Vec Ideal S1x64x128 .f32) (ix3 (0 : Fin 1) b d)
      = (V m c main_arg0 : S6x64x128.Idx → Elt Ideal .f32) (ix3 k b d) := by
  obtain ⟨e0, e1, e2, -⟩ := idx_facts t
  show (V m c main_arg0 : S6x64x128.Idx → Elt Ideal .f32) (((cfg0.win 0).blk t).view.emb (ix3 (0 : Fin 1) b d)) = _
  congr 1
  funext a
  apply Fin.ext
  match a with
  | ⟨0, _⟩ => show win0_0.index t (0 : Fin 3) * 1 + 1 * 0 = k.val; omega
  | ⟨1, _⟩ => show win0_0.index t (1 : Fin 3) * 64 + 1 * b.val = b.val; omega
  | ⟨2, _⟩ => show win0_0.index t (2 : Fin 3) * 128 + 1 * d.val = d.val; omega

/-- The memory window's buffer after point `t`, read at a row `j` that lies inside the array (row
    `t % 4 * 25088 + j` of part `t / 4` exists): that row of the memory array. -/
theorem mfull_apply (c : Dev nD) (t : Fin cfg0.N) (j : Fin 25088) (d : Fin 128) (k : Fin 6) (n : Fin 100000)
    (hk : k.val = t.val / 4) (hn : n.val = t.val % 4 * 25088 + j.val) :
    mfull m c t (ix3 (0 : Fin 1) j d) = (V m c main_arg1 : S6x100000x128.Idx → Elt Ideal .f32) (ix3 k n d) := by
  obtain ⟨-, -, -, e0, e1, e2, -, -, -, x0, x1, x2, -⟩ := idx_facts t
  have hn' := n.isLt
  have hj' := j.isLt
  have hd' := d.isLt
  have hmv : win0_1.moved (grid0.coords t) (ix3 (0 : Fin 1) j d) = true :=
    (win0_1.moved_iff _ _).mpr fun a => by
      match a with
      | ⟨0, _⟩ => show 0 < win0_1.xsize (grid0.coords t) (0 : Fin 3); omega
      | ⟨1, _⟩ => show j.val < win0_1.xsize (grid0.coords t) (1 : Fin 3); omega
      | ⟨2, _⟩ => show d.val < win0_1.xsize (grid0.coords t) (2 : Fin 3); omega
  unfold mfull Window.fill
  rw [dif_pos hmv]
  show (V m c main_arg1 : S6x100000x128.Idx → Elt Ideal .f32) (((cfg0.win 1).blk t).view.emb _) = _
  congr 1
  funext a
  apply Fin.ext
  match a with
  | ⟨0, _⟩ => show win0_1.index t (0 : Fin 3) * 1 + 1 * 0 = k.val; omega
  | ⟨1, _⟩ => show win0_1.index t (1 : Fin 3) * 25088 + 1 * j.val = n.val; omega
  | ⟨2, _⟩ => show win0_1.index t (2 : Fin 3) * 128 + 1 * d.val = d.val; omega

/-- The result window's buffer after point `t`, at feature row `b` and a column `j` whose memory row lies inside
    the array: the similarity of feature row `(t / 4, b)` with memory row `(t / 4, t % 4 * 25088 + j)`. Both sides
    are the same sum over the `128` feature coordinates: the scratch holds the part's features scaled by their
    clamped norms, the memory buffer holds the memory row. -/
theorem outb_apply (c : Dev nD) (t : Fin cfg0.N) (b : Fin 64) (j : Fin 25088) (k : Fin 6) (n : Fin 100000)
    (hk : k.val = t.val / 4) (hn : n.val = t.val % 4 * 25088 + j.val) :
    outb m c t (ix3 (0 : Fin 1) b j)
      = Cert.Spec.sim (V m c main_arg0) (V m c main_arg1) (ix3 k b n) := by
  have hkb : k.val = (base t).val / 4 := by rw [base_val]; omega
  unfold outb
  rw [pay2_apply]
  unfold Cert.Spec.sim
  show _ = ∑ d : Fin 128, Cert.Spec.unit (V m c main_arg0) k b d * (V m c main_arg1 : S6x100000x128.Idx → Elt Ideal .f32) (ix3 k n d)
  refine Finset.sum_congr rfl fun d _ => ?_
  rw [mfull_apply m c t j d k n hk hn]
  congr 1
  unfold scr
  rw [pay1_apply]
  unfold Cert.Spec.unit Cert.Spec.cnorm
  rw [iblk0_apply m c (base t) b d k hkb]
  congr 2
  congr 1
  refine Finset.sum_congr rfl fun e _ => ?_
  rw [iblk0_apply m c (base t) b e k hkb]

/-- What point `t` writes back — the columns of its product block whose memory rows lie inside the array — is the
    similarity tensor read through the block's rectangle: entry `(0, b, j)` of the cut block sits in the array at
    `(t / 4, b, t % 4 * 25088 + j)`. -/
theorem flushed_eq (c : Dev nD) (t : Fin cfg0.N) :
    (dats m 0 c).flushed 2 t
      = ((cfg0.win 2).blk t).view.read (Elt Ideal) (Cert.Spec.sim (V m c main_arg0) (V m c main_arg1)) := by
  show (cfg0.win 2).cut (grid0.coords t) ((dats m 0 c).after 2 t) = _
  rw [after_2]
  obtain ⟨-, -, -, -, -, -, e0, e1, e2, -, -, -, x0, x1, x2⟩ := idx_facts t
  have hN : cfg0.N = 24 := N_24
  have ht := t.isLt
  funext y
  have h0 : (y 0).val < win0_2.xsize (grid0.coords t) (0 : Fin 3) := (y 0).isLt
  have h1 : (y 1).val < win0_2.xsize (grid0.coords t) (1 : Fin 3) := (y 1).isLt
  have h2 : (y 2).val < win0_2.xsize (grid0.coords t) (2 : Fin 3) := (y 2).isLt
  have hin : win0_2.xinj (grid0.coords t) y
      = ix3 (0 : Fin 1) (⟨(y 1).val, by omega⟩ : Fin 64) (⟨(y 2).val, by omega⟩ : Fin 25088) :=
    funext fun a => Fin.ext (by
      match a with
      | ⟨0, _⟩ => show (y 0).val = 0; omega
      | ⟨1, _⟩ => rfl
      | ⟨2, _⟩ => rfl)
  have hemb : ((cfg0.win 2).blk t).view.emb y
      = ix3 (n0 := 6) (n1 := 64) (n2 := 100000) ⟨t.val / 4, by omega⟩ ⟨(y 1).val, by omega⟩
          ⟨t.val % 4 * 25088 + (y 2).val, by omega⟩ :=
    funext fun a => Fin.ext (by
      match a with
      | ⟨0, _⟩ => show win0_2.index t (0 : Fin 3) * 1 + 1 * (y 0).val = t.val / 4; omega
      | ⟨1, _⟩ => show win0_2.index t (1 : Fin 3) * 64 + 1 * (y 1).val = (y 1).val; omega
      | ⟨2, _⟩ => show win0_2.index t (2 : Fin 3) * 25088 + 1 * (y 2).val = t.val % 4 * 25088 + (y 2).val; omega)
  show outb m c t (win0_2.xinj (grid0.coords t) y)
    = Cert.Spec.sim (V m c main_arg0) (V m c main_arg1) (((cfg0.win 2).blk t).view.emb y)
  rw [hin, hemb]
  exact outb_apply m c t _ _ _ _ rfl rfl

/-- Every index `(k, b, n)` of the result array lies in the cut block of the point of part `k` and block
    `n / 25088`: the four blocks of a part start at rows `0`, `25088`, `50176`, `75264` and the last ends with the
    array at `100000`. -/
theorem cover (i : S6x64x100000.Idx) :
    ∃ t : Fin cfg0.N, (cfg0.win 2).flush t = true ∧ i ∈ ((cfg0.win 2).blk t).view.set := by
  have h0 : (i 0).val < 6 := (i 0).isLt
  have h1 : (i 1).val < 64 := (i 1).isLt
  have h2 : (i 2).val < 100000 := (i 2).isLt
  have hN : cfg0.N = 24 := N_24
  obtain ⟨t, ht⟩ : ∃ t : Fin cfg0.N, t.val = 4 * (i 0).val + (i 2).val / 25088 := ⟨⟨_, by omega⟩, rfl⟩
  refine ⟨t, flush0_2 t, ?_⟩
  obtain ⟨-, -, -, -, -, -, e0, e1, e2, -, -, -, x0, x1, x2⟩ := idx_facts t
  show i ∈ ((View.whole main_v0).slice (win0_2.rect t)).set
  rw [View.set_slice_whole, Rect.mem_set_unit]
  intro a
  match a with
  | ⟨0, _⟩ =>
    show win0_2.index t (0 : Fin 3) * 1 ≤ (i 0).val
      ∧ (i 0).val < win0_2.index t (0 : Fin 3) * 1 + win0_2.xsize (grid0.coords t) (0 : Fin 3)
    omega
  | ⟨1, _⟩ =>
    show win0_2.index t (1 : Fin 3) * 64 ≤ (i 1).val
      ∧ (i 1).val < win0_2.index t (1 : Fin 3) * 64 + win0_2.xsize (grid0.coords t) (1 : Fin 3)
    omega
  | ⟨2, _⟩ =>
    show win0_2.index t (2 : Fin 3) * 25088 ≤ (i 2).val
      ∧ (i 2).val < win0_2.index t (2 : Fin 3) * 25088 + win0_2.xsize (grid0.coords t) (2 : Fin 3)
    omega

/-- After the last write-back the result array holds, at `(k, b, n)`, the inner product of the scaled feature row
    `(k, b)` with memory row `(k, n)`. -/
theorem final_sim (c : Dev nD) :
    (dats m 0 c).arrAt 2 cfg0.N = Cert.Spec.sim (V m c main_arg0) (V m c main_arg1) :=
  (dats m 0 c).arrAt_eq_of_cover 2 (Cert.Spec.sim (V m c main_arg0) (V m c main_arg1))
    (fun t _ => flushed_eq m c t) cover

end Cert.KernelIdeal.Hand

end
-- ==== Proof.SimI.lean ====
/-
  The idealized kernel's run in the specification's terms: the result array ends at the similarity tensor of the two
  argument arrays, and those end as they began.
-/
import proofs.«179174_g58102317581049_cont_9to1_m_374_9_alg».proof.Proof.RunI
import proofs.«179174_g58102317581049_cont_9to1_m_374_9_alg».proof.Proof.ValueI

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- Every weakly fair execution terminates with the result array at the similarity tensor of the arguments (the
    write-backs of the `24` points piece it together) and the arguments unchanged (inputs are never written). -/
theorem run_sim : θ_run defs (onTc (τ := τ) (main (F := Ideal))) ⟨m, fun _ => 0, ρ⟩ (fun r => ∀ c : Dev nD,
      r.2.mem ((c.tc : Thread nD τ).loc main_v0)
        = Cert.Spec.sim (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 2).trans (final_sim m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Hand

end
-- ==== Proof.RefG.lean ====
import proofs.«179174_g58102317581049_cont_9to1_m_374_9_alg».proof.Defs
import proofs.«179174_g58102317581049_cont_9to1_m_374_9_alg».proof.Proof.Gen.ReferenceIdeal.Read
import proofs.«179174_g58102317581049_cont_9to1_m_374_9_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-- The contraction reads the scaled features at `(k, b, d)`. -/
theorem lidx_eq (i : S6x64x100000.Idx) (d : Fin 128) :
    Read.lidx_main_v4 i d = ix3 (n0 := 6) (n1 := 64) (n2 := 128) (i 0) (i 1) d :=
  funext fun a => Fin.ext (by match a with | ⟨0, _⟩ => rfl | ⟨1, _⟩ => rfl | ⟨2, _⟩ => rfl)

/-- The contraction reads the memory rows at `(k, n, d)`. -/
theorem ridx_eq (i : S6x64x100000.Idx) (d : Fin 128) :
    Read.ridx_main_v4 i d = ix3 (n0 := 6) (n1 := 100000) (n2 := 128) (i 0) (i 2) d :=
  funext fun a => Fin.ext (by match a with | ⟨0, _⟩ => rfl | ⟨1, _⟩ => rfl | ⟨2, _⟩ => rfl)

/-- The sum of squares of row `(k, b)` is read at `(k, b, e)`, whichever coordinate `d` asked for the norm. -/
theorem nidx_eq (k : Fin 6) (b : Fin 64) (d e : Fin 128) :
    Read.idx_main_call0_v1 (Read.idx_main_call0_v2 (Read.idx_main_v2 (ix3 k b d))) e = ix3 k b e :=
  funext fun a => Fin.ext (by match a with | ⟨0, _⟩ => rfl | ⟨1, _⟩ => rfl | ⟨2, _⟩ => rfl)

/-- The scaled features, read at `(k, b, d)`, are the specification's unit row. -/
theorem v3_eq (x0 : (⟨Cert.ReferenceIdeal.S6x64x128, .f32⟩ : BufTy).Contents (Elt Ideal)) (k : Fin 6) (b : Fin 64) (d : Fin 128) :
    Read.val_main_v3 (F := Ideal) x0 (ix3 k b d) = Cert.Spec.unit x0 k b d := by
  rw [Read.val_main_v3_apply, Read.val_main_v2_apply, Read.val_main_v1_apply, Read.val_main_call1_v1_apply,
    Read.val_main_call1_v0_apply, Read.val_main_cst_apply, Read.val_main_v0_apply, Read.val_main_call0_v2_apply,
    Read.val_main_call0_v1_apply, Read.val_main_call0_cst_apply]
  simp only [Read.val_main_call0_v0_apply, nidx_eq, Ideal.hostDivf_def, Ideal.hostUnary_sqrt_def, Ideal.maximumf_def,
    Ideal.mulf_def, Ideal.ofBits_def, Ideal.ofBits_zero_f32, zero_add]
  rw [max_comm]
  rfl

/-- The reference's result is the similarity tensor of its two arguments. -/
theorem ref_eq (x0 : (⟨Cert.ReferenceIdeal.S6x64x128, .f32⟩ : BufTy).Contents (Elt Ideal)) (x1 : (⟨Cert.ReferenceIdeal.S6x100000x128, .f32⟩ : BufTy).Contents (Elt Ideal)) :
    Cert.ReferenceIdeal.Read.val_main_v4 (F := Ideal) x0 x1 = Cert.Spec.sim x0 x1 := by
  funext i
  rw [Read.val_main_v4_apply]
  refine Finset.sum_congr rfl fun d _ => ?_
  rw [lidx_eq, ridx_eq]
  exact congrArg (· * x1 (ix3 (i 0) (i 2) d)) (v3_eq x0 (i 0) (i 1) d)

/-- The reference's run, in the specification's terms: the result buffer ends at the similarity tensor of the two
    argument buffers, which are left as they were. -/
theorem run_sim (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v4) = Cert.Spec.sim (m ((c.tc : Thread _ _).loc Cert.ReferenceIdeal.main_arg0)) (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1) :=
  (θ_run _ _ _).mono (fun _ h c => ⟨(h c).1.trans ((Read.val_main_v4_eq _ _).trans (ref_eq _ _)), (h c).2⟩)
    (Cert.ReferenceIdeal.Value.run (F := Ideal) m ρ)

end Cert.ReferenceIdeal.RefValue

end
-- ==== Proof.lean ====
/-
  Cosine similarity of `6` parts' feature rows against their memory banks: a tiled kernel against one batched
  contraction.

  Both programs scale each of the `6 × 64` feature rows by its Euclidean norm, clamped from below at one
  single-precision pattern, and take the inner product over the `128` feature coordinates with each of the part's
  `100000` memory rows. The reference does it in one batched contraction; the kernel walks a grid of `6` parts by `4`
  blocks of `25088` memory rows, scaling a part's features once, at the part's first block, into a scratch it carries
  to the part's other blocks, and multiplying block by block. The narrowing of the operands to sixteen bits is the
  identity on the extended reals; a sum does not depend on its grouping; the larger of two numbers does not depend on
  their order. So index by index both results are one sum (`Cert.Spec.sim`), and no law is used that needs the inputs
  finite. The last block of a part overhangs the memory array by `352` rows: what the staging buffer holds there is
  not named, reaches only result columns past the array's end, and those are never written back.

  The three frames: the reference's from its run; the idealized kernel's from its run with every buffer named; the
  word-level kernel's from a run that names no buffer, since there the product is not a function of single rows.
  No rewrite separates the kernel from its idealization.
-/
import proofs.«179174_g58102317581049_cont_9to1_m_374_9_alg».proof.Defs
import proofs.«179174_g58102317581049_cont_9to1_m_374_9_alg».proof.Proof.Gen.Kernel
import proofs.«179174_g58102317581049_cont_9to1_m_374_9_alg».proof.Proof.Gen.KernelIdeal
import proofs.«179174_g58102317581049_cont_9to1_m_374_9_alg».proof.Proof.Gen.ReferenceIdeal
import proofs.«179174_g58102317581049_cont_9to1_m_374_9_alg».proof.Proof.Gen.Pre_finite_inputs
import proofs.«179174_g58102317581049_cont_9to1_m_374_9_alg».proof.Proof.FrameK
import proofs.«179174_g58102317581049_cont_9to1_m_374_9_alg».proof.Proof.SimI
import proofs.«179174_g58102317581049_cont_9to1_m_374_9_alg».proof.Proof.RefG

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_sim m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_sim m ρ)

/-- Both idealized programs end with the similarity tensor of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run_sim m ρ, ?_⟩
  refine (θ_run Cert.ReferenceIdeal.defs _ _).mono (fun _ h c => ⟨(h c).1.trans ?_, (h c).2⟩)
    (Cert.ReferenceIdeal.RefValue.run_sim m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
